-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S50000x128 .f32) (main_v48 : IVec S_ 1) (main_v49 : FVec F S50000x128 .f32) (main_v50 : FVec F S50000x128 .f32) : IVec S_ 1 :=
  let main_v51 : IVec S50000x128 1 := cmpf .olt main_v49 main_v50
  let main_c_19 : IVec S_ 1 := constantI S_ 1 1#1
  let main_v52 : IVec S_ 1 := (fun x v => Host.reduce IntOp.andi x v reducesTo_S50000x128_S_d0_1 h_S_) main_v51 main_c_19
  let main_v53 : IVec S_ 1 := andi main_v48 main_v52
  let main_v54 : FVec F S50000x128 .f32 := Host.absf main_arg13
  let main_cst_20 : FVec F S_ .f32 := constant S_ .f32 0x7F800000#32
  let main_v55 : FVec F S50000x128 .f32 := broadcastInDim S50000x128 ![] bcast_S_S50000x128 main_cst_20
  let main_v56 : IVec S50000x128 1 := cmpf .olt main_v54 main_v55
  let main_c_21 : IVec S_ 1 := constantI S_ 1 1#1
  let main_v57 : IVec S_ 1 := (fun x v => Host.reduce IntOp.andi x v reducesTo_S50000x128_S_d0_1 h_S_) main_v56 main_c_21
  let main_v58 : IVec S_ 1 := andi main_v53 main_v57
  main_v58

def fn_part2 {F : FTy → Type} [FloatOps F] (main_arg9 : FVec F S128x64 .f32) (main_arg10 : FVec F S128x64 .f32) (main_arg11 : FVec F S64 .f32) (main_arg12 : FVec F S50000x128 .f32) (main_arg13 : FVec F S50000x128 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S50000x128 .f32 := Host.absf main_arg12
  let main_cst_18 : FVec F S_ .f32 := constant S_ .f32 0x7F800000#32
  let main_v50 : FVec F S50000x128 .f32 := broadcastInDim S50000x128 ![] bcast_S_S50000x128 main_cst_18
  fn_part3 (F := F) main_arg13 main_v48 main_v49 main_v50

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_arg12 : FVec F S50000x128 .f32) (main_arg13 : FVec F S50000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_arg12 : FVec F S50000x128 .f32) (main_arg13 : FVec F S50000x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 80
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S50000x128, .f32⟩
  | .hbm, ⟨13, _⟩ => ⟨S50000x128, .f32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S1x64, .f32⟩
  | .hbm, ⟨79, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x64, .f32⟩
  | .local _ .vmem, ⟨27, _⟩ => ⟨S128x64, .f32⟩
  | .local _ .vmem, ⟨28, _⟩ => ⟨S1x64, .f32⟩
  | .local _ .vmem, ⟨29, _⟩ => ⟨S2000x64, .f32⟩
  | .local _ .vmem, ⟨30, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S50000x64, .f32⟩
  | .hbm, ⟨110, _⟩ => ⟨S50000x64, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_cst : Ref sig .tc := ⟨.hbm, 45, rfl⟩
abbrev main_call0_v0 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Reciprocal.lean ====
/-
  The one law of the extended reals that joins the two programs.

  The kernel's program forms the reciprocal of the clamped in-degree once, `1 / max(deg, 1)`, and multiplies each
  neighbour sum by it; the reference divides each neighbour sum by `max(deg, 1)`. The exact division of this
  instance is `x · y⁻¹` away from `y = 0`, so for a divisor that is not zero the product with the reciprocal IS
  the quotient, for every extended real `x` (the infinities included: no finiteness is used). The clamped degree
  is at least `1`, hence never zero, whatever the degree is.
-/
import Idealize.ShloMosaic.PureOps.Ideal
import Idealize.ShloMosaic.PureOps.Ideal.Laws

noncomputable section

namespace Cert.Sage

open Idealize.ShloMosaic

/-- Off a zero divisor, multiplying by the reciprocal is dividing. -/
theorem mul_one_div (x d : EReal) (hd : d ≠ 0) : x * Ideal.div 1 d = Ideal.div x d := by
  unfold Ideal.div
  rw [if_neg hd, if_neg hd, one_mul]

/-- A value clamped below by one is not zero. -/
theorem max_one_ne_zero (x : EReal) : max x 1 ≠ 0 :=
  (lt_of_lt_of_le zero_lt_one (le_max_right x 1)).ne'

/-- The f32 word of `1.0` is the extended real one. -/
theorem ofBits_one_f32 : Ideal.ofBits .f32 0x3F800000#32 = 1 := by
  simp [Ideal.ofBits, Ideal.ieee]
  rw [← EReal.coe_mul, ← EReal.coe_one]
  exact congrArg _ (by norm_num)

/-- The law at the two programs' literals: a neighbour sum times the reciprocal of the clamped degree is the
    neighbour sum divided by the clamped degree. -/
theorem mul_recip_clamped (s deg : EReal) :
    s * Ideal.div (Ideal.ofBits .f32 0x3F800000#32) (max deg (Ideal.ofBits .f32 0x3F800000#32))
      = Ideal.div s (max deg (Ideal.ofBits .f32 0x3F800000#32)) := by
  rw [ofBits_one_f32]
  exact mul_one_div s _ (max_one_ne_zero deg)

end Cert.Sage

end
-- ==== Proof.Layers.lean ====
/-
  The two programs' layers as whole-array functions, and the one place where they differ.

  A layer takes node features `h` (50000 rows). Its neighbour mean is built from three pieces that BOTH programs
  spell with the same host operations: the edge gather of `h` at the (wrapped) source indices scatter-added into the
  destination rows (`agg`), the in-degree as a scatter-add of ones (`deg`), and the degree clamped below by one.
  The kernel's program multiplies `agg` by the broadcast RECIPROCAL of the clamped degree, formed once; the
  reference divides `agg` by the broadcast clamped degree. Then `h · W_self + mean · W_neigh + b`, and for the
  first two layers `max(·, 0)` times the dropout mask.

  Each piece is written twice, once over each program's own shape and dimension records (they are the same
  records under two names), generic in the float family; the pieces agree by unfolding, and the two neighbour
  means agree at the exact instance by the reciprocal law, element by element.
-/
import proofs.«181391_j64845416235755_1_alg».proof.Proof.Gen.KernelIdeal
import proofs.«181391_j64845416235755_1_alg».proof.Proof.Gen.ReferenceIdeal
import proofs.«181391_j64845416235755_1_alg».proof.Proof.Reciprocal
import Idealize.ShloMosaic.PureOps.Ideal
import Idealize.ShloMosaic.Lib.ValueIdx

noncomputable section

namespace Cert.Sage

open Idealize.ShloMosaic

variable {F : FTy → Type} [FloatOps F]

/-! ## The kernel program's host spelling -/

section KernelSide

open Cert.KernelIdeal Cert.KernelIdeal.Gen

/-- Source indices with the negative ones wrapped by the row count, as an index column. -/
def wrapK (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The rows of `h` at the edges' sources, summed into the edges' destination rows. -/
def aggK (src dst : IVec S800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (wrapK src))

/-- The in-degree: a one per edge summed into its destination. -/
def degK (dst : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The reciprocal of the degree clamped below by one. -/
def recipK (dst : IVec S800000 32) : FVec F S50000 .f32 :=
  Host.divf (broadcastInDim S50000 ![] bcast_S_S50000 (constant S_ .f32 0x3F800000#32))
    (maximumf (degK dst) (broadcastInDim S50000 ![] bcast_S_S50000 (constant S_ .f32 0x3F800000#32)))

/-- A row-indexed vector spread over the 128 columns. -/
def spreadK (v : FVec F S50000 .f32) : FVec F S50000x128 .f32 :=
  broadcastInDim S50000x128 ![0, 1] bcast_S50000x1_S50000x128_0_1 (broadcastInDim S50000x1 ![0] bcast_S50000_S50000x1_0 v)

/-- The kernel program's neighbour mean: the sum TIMES the reciprocal. -/
def neighK (src dst : IVec S800000 32) (r : FVec F S50000 .f32) (h : FVec F S50000x128 .f32) : FVec F S50000x128 .f32 :=
  mulf (aggK src dst h) (spreadK r)

end KernelSide

/-! ## The reference's host spelling -/

section ReferenceSide

open Cert.ReferenceIdeal Cert.ReferenceIdeal.Gen

def wrapR (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def aggR (src dst : IVec S800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (wrapR src))

def degR (dst : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The reference's neighbour mean: the sum DIVIDED by the clamped degree. -/
def neighR (src dst : IVec S800000 32) (h : FVec F S50000x128 .f32) : FVec F S50000x128 .f32 :=
  Host.divf (aggR src dst h)
    (broadcastInDim S50000x128 ![0, 1] bcast_S50000x1_S50000x128_0_1 (broadcastInDim S50000x1 ![0] bcast_S50000_S50000x1_0
      (maximumf (degR dst) (broadcastInDim S50000 ![] bcast_S_S50000 (constant S_ .f32 0x3F800000#32)))))

/-- A dense layer with activation: `max(h·Ws + n·Wn + b, 0) · mask`, as the reference spells it. -/
def actR (h n : FVec F S50000x128 .f32) (ws wn : FVec F S128x128 .f32) (b : FVec F S128 .f32) (mask : FVec F S50000x128 .f32) :
    FVec F S50000x128 .f32 :=
  mulf (maximumf (addf (addf (Host.dotGeneral dot_S50000x128_S128x128_S50000x128_1_0_0_1_n_n none h ws)
      (Host.dotGeneral dot_S50000x128_S128x128_S50000x128_1_0_0_1_n_n none n wn))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))) mask

/-- The last dense layer, 64 columns wide, no activation: `h·Ws + n·Wn + b`. -/
def plainR (h n : FVec F S50000x128 .f32) (ws wn : FVec F S128x64 .f32) (b : FVec F S64 .f32) : FVec F S50000x64 .f32 :=
  addf (addf (Host.dotGeneral dot_S50000x128_S128x64_S50000x64_1_0_0_1_n_n none h ws)
      (Host.dotGeneral dot_S50000x128_S128x64_S50000x64_1_0_0_1_n_n none n wn))
    (broadcastInDim S50000x64 ![0, 1] bcast_S1x64_S50000x64_0_1 (broadcastInDim S1x64 ![1] bcast_S64_S1x64_1 b))

/-- The three layers composed: the function both programs compute. -/
def sage (x : FVec F S50000x128 .f32) (src dst : IVec S800000 32)
    (ws1 wn1 : FVec F S128x128 .f32) (b1 : FVec F S128 .f32) (ws2 wn2 : FVec F S128x128 .f32) (b2 : FVec F S128 .f32)
    (ws3 wn3 : FVec F S128x64 .f32) (b3 : FVec F S64 .f32) (mask1 mask2 : FVec F S50000x128 .f32) : FVec F S50000x64 .f32 :=
  plainR (actR (actR x (neighR src dst x) ws1 wn1 b1 mask1) (neighR src dst (actR x (neighR src dst x) ws1 wn1 b1 mask1)) ws2 wn2 b2 mask2)
    (neighR src dst (actR (actR x (neighR src dst x) ws1 wn1 b1 mask1) (neighR src dst (actR x (neighR src dst x) ws1 wn1 b1 mask1)) ws2 wn2 b2 mask2))
    ws3 wn3 b3

end ReferenceSide

/-! ## The shared pieces agree -/

theorem agg_eq (src dst : IVec Cert.KernelIdeal.S800000 32) (h : FVec F Cert.KernelIdeal.S50000x128 .f32) :
    aggK src dst h = aggR src dst h := rfl

theorem deg_eq (dst : IVec Cert.KernelIdeal.S800000 32) : (degK dst : FVec F Cert.KernelIdeal.S50000 .f32) = degR dst := rfl

/-! ## The neighbour means agree at the exact instance -/

open Cert.ReferenceIdeal Cert.ReferenceIdeal.Gen in
/-- The law on whole arrays: any array `A` times the spread reciprocal of a clamped row vector `d` is `A` divided
    by the spread clamped vector. Entry `i` of either spread reads `d` at `i`'s row, so this is the scalar law there. -/
theorem mul_spread_recip (A : FVec Ideal S50000x128 .f32) (d : FVec Ideal S50000 .f32) :
    mulf A (broadcastInDim S50000x128 ![0, 1] bcast_S50000x1_S50000x128_0_1 (broadcastInDim S50000x1 ![0] bcast_S50000_S50000x1_0
        (Host.divf (broadcastInDim S50000 ![] bcast_S_S50000 (constant S_ .f32 0x3F800000#32))
          (maximumf d (broadcastInDim S50000 ![] bcast_S_S50000 (constant S_ .f32 0x3F800000#32))))))
      = Host.divf A (broadcastInDim S50000x128 ![0, 1] bcast_S50000x1_S50000x128_0_1 (broadcastInDim S50000x1 ![0] bcast_S50000_S50000x1_0
          (maximumf d (broadcastInDim S50000 ![] bcast_S_S50000 (constant S_ .f32 0x3F800000#32))))) := by
  funext i
  simp only [mulf, Host.divf, maximumf, broadcastInDim, constant, Ideal.mulf_def, Ideal.hostDivf_def, Ideal.maximumf_def,
    Ideal.ofBits_def]
  exact mul_recip_clamped _ _

/-- The kernel program's `agg · (1 / max(deg, 1))` is the reference's `agg / max(deg, 1)`: the shared pieces are the
    same arrays, and between them stands the law above. -/
theorem neigh_eq (src dst : IVec Cert.KernelIdeal.S800000 32) (h : FVec Ideal Cert.KernelIdeal.S50000x128 .f32) :
    neighK src dst (recipK dst) h = neighR src dst h := by
  unfold neighK neighR spreadK recipK
  rw [agg_eq, deg_eq]
  exact mul_spread_recip (aggR src dst h) (degR dst)

end Cert.Sage

end
-- ==== Proof.DenseBlock.lean ====
/-
  One grid point's block of a dense layer, read entry by entry at the exact instance.

  A kernel body loads a 2000-row block of the features `x`, the matching block of the neighbour means `n`, the two
  whole weight matrices, the bias as a one-row array and (in the first two layers) the block of the mask; it stores
  `max(x·Ws + n·Wn + b, 0) · mask` (the last layer: `x·Ws + n·Wn + b`). The narrowing of the operands to a
  shorter float format is the identity on extended reals, each matrix product accumulates into zeros and is therefore the
  plain sum over the 128 shared positions, and the bias row is spread down the rows. So entry (r, c) of the
  stored block is `max(Σₖ x(r,k)·Ws(k,c) + Σₖ n(r,k)·Wn(k,c) + b(0,c), 0) · mask(r,c)`.
-/
import proofs.«181391_j64845416235755_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.KernelIdeal Cert.KernelIdeal.Gen

/-! ### The block product `[2000,128] · [128,128]` read at a block index -/

theorem lhs_blk128_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blk128_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_blk128_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_blk128_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `j 0` of a feature block, column `k`. -/
abbrev rowAt128 (j : S2000x128.Idx) (k : Fin 128) : S2000x128.Idx := fun a => match a with
  | ⟨0, _⟩ => ⟨(j 0).val, (j 0).isLt⟩
  | ⟨1, _⟩ => ⟨k.val, k.isLt⟩
/-- Row `k` of a weight matrix, column `j 1`. -/
abbrev colAt128 (j : S2000x128.Idx) (k : Fin 128) : S128x128.Idx := fun a => match a with
  | ⟨0, _⟩ => ⟨k.val, k.isLt⟩
  | ⟨1, _⟩ => ⟨(j 1).val, (j 1).isLt⟩
/-- The bias row's entry above column `j 1`. -/
abbrev biasAt128 (j : S2000x128.Idx) : S1x128.Idx := fun a => match a with
  | ⟨0, _⟩ => ⟨0, Nat.one_pos⟩
  | ⟨1, _⟩ => ⟨(j 1).val, (j 1).isLt⟩

/-- Into a zero accumulator the block product at `j` is the sum over the 128 shared positions of row times column. -/
theorem matmul_blk128 {φ₁ φ₂ : FTy} (x : FVec Ideal S2000x128 φ₁) (w : FVec Ideal S128x128 φ₂) (j : S2000x128.Idx) :
    FloatOps.matmul dot_S2000x128_S128x128_S2000x128_1_0_0_1_n_n none x w (constant S2000x128 .f32 0x00000000#32) j
      = ∑ k : Fin 128, x (rowAt128 j k) * w (colAt128 j k) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowAt128 j k := funext fun a => Fin.ext (by
    match a with
    | ⟨0, _⟩ => exact lhs_blk128_0 _ _
    | ⟨1, _⟩ => exact (lhs_blk128_1 _ _).trans hk)
  have er : dot_S2000x128_S128x128_S2000x128_1_0_0_1_n_n.rhsIdx j ((ValueIdx.contrEquiv1 dot_S2000x128_S128x128_S2000x128_1_0_0_1_n_n 128 rfl rfl).symm k) = colAt128 j k := funext fun a => Fin.ext (by
    match a with
    | ⟨0, _⟩ => exact (rhs_blk128_0 _ _).trans hk
    | ⟨1, _⟩ => exact rhs_blk128_1 _ _)
  rw [el, er]

/-- The bias row spread down a block reads, at `j`, the row's entry above `j`'s column. -/
theorem bias_blk128 (b : FVec Ideal S1x128 .f32) (j : S2000x128.Idx) :
    broadcastTo S2000x128 b broadcasts_S1x128_S2000x128 j = b (biasAt128 j) := by
  exact broadcastTo_apply b broadcasts_S1x128_S2000x128 j (biasAt128 j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

/-! ### The block product `[2000,128] · [128,64]` read at a block index -/

theorem lhs_blk64_0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_blk64_1 (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_blk64_0 (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_blk64_1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Row `j 0` of a feature block, column `k`. -/
abbrev rowAt64 (j : S2000x64.Idx) (k : Fin 128) : S2000x128.Idx := fun a => match a with
  | ⟨0, _⟩ => ⟨(j 0).val, (j 0).isLt⟩
  | ⟨1, _⟩ => ⟨k.val, k.isLt⟩
/-- Row `k` of a weight matrix, column `j 1`. -/
abbrev colAt64 (j : S2000x64.Idx) (k : Fin 128) : S128x64.Idx := fun a => match a with
  | ⟨0, _⟩ => ⟨k.val, k.isLt⟩
  | ⟨1, _⟩ => ⟨(j 1).val, (j 1).isLt⟩
/-- The bias row's entry above column `j 1`. -/
abbrev biasAt64 (j : S2000x64.Idx) : S1x64.Idx := fun a => match a with
  | ⟨0, _⟩ => ⟨0, Nat.one_pos⟩
  | ⟨1, _⟩ => ⟨(j 1).val, (j 1).isLt⟩

/-- Into a zero accumulator the block product at `j` is the sum over the 128 shared positions of row times column. -/
theorem matmul_blk64 {φ₁ φ₂ : FTy} (x : FVec Ideal S2000x128 φ₁) (w : FVec Ideal S128x64 φ₂) (j : S2000x64.Idx) :
    FloatOps.matmul dot_S2000x128_S128x64_S2000x64_1_0_0_1_n_n none x w (constant S2000x64 .f32 0x00000000#32) j
      = ∑ k : Fin 128, x (rowAt64 j k) * w (colAt64 j k) := by
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = rowAt64 j k := funext fun a => Fin.ext (by
    match a with
    | ⟨0, _⟩ => exact lhs_blk64_0 _ _
    | ⟨1, _⟩ => exact (lhs_blk64_1 _ _).trans hk)
  have er : dot_S2000x128_S128x64_S2000x64_1_0_0_1_n_n.rhsIdx j ((ValueIdx.contrEquiv1 dot_S2000x128_S128x64_S2000x64_1_0_0_1_n_n 128 rfl rfl).symm k) = colAt64 j k := funext fun a => Fin.ext (by
    match a with
    | ⟨0, _⟩ => exact (rhs_blk64_0 _ _).trans hk
    | ⟨1, _⟩ => exact rhs_blk64_1 _ _)
  rw [el, er]

/-- The bias row spread down a block reads, at `j`, the row's entry above `j`'s column. -/
theorem bias_blk64 (b : FVec Ideal S1x64 .f32) (j : S2000x64.Idx) :
    broadcastTo S2000x64 b broadcasts_S1x64_S2000x64 j = b (biasAt64 j) := by
  exact broadcastTo_apply b broadcasts_S1x64_S2000x64 j (biasAt64 j) (fun a => match a with
    | ⟨0, _⟩ => by show 0 = if (1 : Nat) = 1 then 0 else _; rw [if_pos rfl]
    | ⟨1, _⟩ => by show (j 1).val = if (64 : Nat) = 1 then 0 else _; rw [if_neg (by decide)]; rfl)

/-! ### The three bodies' stored values -/

/-- The scalar zero a body compares against is the zero word's extended real. -/
theorem scalar_zero : (Scalar.ofBits .f32 0x00000000#32 : Ideal .f32) = Ideal.ofBits .f32 0x00000000#32 := rfl

/-- First layer's body. -/
theorem pay0_apply (x0 x1 : Vec Ideal S2000x128 .f32) (x2 x3 : Vec Ideal S128x128 .f32) (x4 : Vec Ideal S1x128 .f32)
    (x5 : Vec Ideal S2000x128 .f32) (j : S2000x128.Idx) :
    k0_pay1 x0 x1 x2 x3 x4 x5 j
      = max ((∑ k : Fin 128, x0 (rowAt128 j k) * x2 (colAt128 j k)) + (∑ k : Fin 128, x1 (rowAt128 j k) * x3 (colAt128 j k))
          + x4 (biasAt128 j)) (Ideal.ofBits .f32 0x00000000#32) * x5 j := by
  unfold k0_pay1
  simp only [mulf_apply, maximumf_apply, addf_apply, broadcast_apply, matmul, matmul_blk128, bias_blk128, truncf_apply,
    shapeCast_self, scalar_zero]

/-- Second layer's body: the same arithmetic. -/
theorem pay1_apply (x0 x1 : Vec Ideal S2000x128 .f32) (x2 x3 : Vec Ideal S128x128 .f32) (x4 : Vec Ideal S1x128 .f32)
    (x5 : Vec Ideal S2000x128 .f32) (j : S2000x128.Idx) :
    k1_pay1 x0 x1 x2 x3 x4 x5 j
      = max ((∑ k : Fin 128, x0 (rowAt128 j k) * x2 (colAt128 j k)) + (∑ k : Fin 128, x1 (rowAt128 j k) * x3 (colAt128 j k))
          + x4 (biasAt128 j)) (Ideal.ofBits .f32 0x00000000#32) * x5 j := by
  unfold k1_pay1
  simp only [mulf_apply, maximumf_apply, addf_apply, broadcast_apply, matmul, matmul_blk128, bias_blk128, truncf_apply,
    shapeCast_self, scalar_zero]

/-- Last layer's body: 64 columns, no clamp at zero and no mask. -/
theorem pay2_apply (x0 x1 : Vec Ideal S2000x128 .f32) (x2 x3 : Vec Ideal S128x64 .f32) (x4 : Vec Ideal S1x64 .f32)
    (j : S2000x64.Idx) :
    k2_pay1 x0 x1 x2 x3 x4 j
      = (∑ k : Fin 128, x0 (rowAt64 j k) * x2 (colAt64 j k)) + (∑ k : Fin 128, x1 (rowAt64 j k) * x3 (colAt64 j k))
          + x4 (biasAt64 j) := by
  unfold k2_pay1
  simp only [addf_apply, matmul, matmul_blk64, bias_blk64, truncf_apply, shapeCast_self]

end Cert.Sage

end
-- ==== Proof.DenseArray.lean ====
/-
  A dense layer of the reference read entry by entry, and a kernel block recognised as a piece of it.

  The reference computes a layer on whole arrays: two matrix products on the host, a bias broadcast over the rows,
  `max(·, 0)` and the mask. At the exact instance a host matrix product is the plain sum over the shared axis, so
  entry (r, c) is `max(Σₖ h(r,k)·Ws(k,c) + Σₖ n(r,k)·Wn(k,c) + b(c), 0) · mask(r,c)` — the expression a kernel block
  holds at its own (row, column) (DenseBlock). Hence: if each block a body loads reads its array at the place the
  output block's entry sits in the whole array (same row, the shared position as column; the weight's row and the
  entry's column; the bias above the column; the mask at the entry itself), then what the body stores at an entry is
  the layer's value at that place. The bias is taken as a one-row array, which is what the kernel's windows stage; the
  reference's own 128-vector bias is that row after its first broadcast.
-/
import proofs.«181391_j64845416235755_1_alg».proof.Proof.Layers
import proofs.«181391_j64845416235755_1_alg».proof.Proof.DenseBlock
import proofs.«181391_j64845416235755_1_alg».proof.Proof.Gen.ReferenceIdeal.Read
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx

section Layers

open Cert.ReferenceIdeal Cert.ReferenceIdeal.Gen Cert.ReferenceIdeal.Read

variable {F : FTy → Type} [FloatOps F]

/-- A layer with activation over a bias given as a one-row array. -/
def actRowR (h n : FVec F S50000x128 .f32) (ws wn : FVec F S128x128 .f32) (brow : FVec F S1x128 .f32) (mask : FVec F S50000x128 .f32) :
    FVec F S50000x128 .f32 :=
  mulf (maximumf (addf (addf (Host.dotGeneral dot_S50000x128_S128x128_S50000x128_1_0_0_1_n_n none h ws)
      (Host.dotGeneral dot_S50000x128_S128x128_S50000x128_1_0_0_1_n_n none n wn))
      (broadcastInDim S50000x128 ![0, 1] bcast_S1x128_S50000x128_0_1 brow))
    (broadcastInDim S50000x128 ![] bcast_S_S50000x128 (constant S_ .f32 0x00000000#32))) mask

/-- The last layer over a bias given as a one-row array. -/
def plainRowR (h n : FVec F S50000x128 .f32) (ws wn : FVec F S128x64 .f32) (brow : FVec F S1x64 .f32) : FVec F S50000x64 .f32 :=
  addf (addf (Host.dotGeneral dot_S50000x128_S128x64_S50000x64_1_0_0_1_n_n none h ws)
      (Host.dotGeneral dot_S50000x128_S128x64_S50000x64_1_0_0_1_n_n none n wn))
    (broadcastInDim S50000x64 ![0, 1] bcast_S1x64_S50000x64_0_1 brow)

/-- The reference's layer is the row form at its bias's first broadcast. -/
theorem actR_row (h n : FVec F S50000x128 .f32) (ws wn : FVec F S128x128 .f32) (b : FVec F S128 .f32) (mask : FVec F S50000x128 .f32) :
    actR h n ws wn b mask = actRowR h n ws wn (broadcastInDim S1x128 ![1] bcast_S128_S1x128_1 b) mask := rfl

theorem plainR_row (h n : FVec F S50000x128 .f32) (ws wn : FVec F S128x64 .f32) (b : FVec F S64 .f32) :
    plainR h n ws wn b = plainRowR h n ws wn (broadcastInDim S1x64 ![1] bcast_S64_S1x64_1 b) := rfl

/-- The host product `[50000,128] · [128,64]` at an index: the sum over the 128 shared positions. -/
theorem dot64_apply (x : FVec Ideal S50000x128 .f32) (w : FVec Ideal S128x64 .f32) (i : S50000x64.Idx) :
    Host.dotGeneral dot_S50000x128_S128x64_S50000x64_1_0_0_1_n_n none x w i
      = ∑ k : Fin 128, x (lidx_main_v73 i k) * w (ridx_main_v73 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v73 i k := funext fun a => Fin.ext (by
    match a with
    | ⟨0, _⟩ => exact lhs_main_v73_0 _ _
    | ⟨1, _⟩ => exact (lhs_main_v73_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v73 i k := funext fun a => Fin.ext (by
    match a with
    | ⟨0, _⟩ => exact (rhs_main_v73_0 _ _).trans hk
    | ⟨1, _⟩ => exact rhs_main_v73_1 _ _)
  rw [el, er]

/-- A layer with activation at an index. -/
theorem actRowR_apply (h n : FVec Ideal S50000x128 .f32) (ws wn : FVec Ideal S128x128 .f32) (brow : FVec Ideal S1x128 .f32)
    (mask : FVec Ideal S50000x128 .f32) (i : S50000x128.Idx) :
    actRowR h n ws wn brow mask i
      = max ((∑ k : Fin 128, h (lidx_main_v19 i k) * ws (ridx_main_v19 i k)) + (∑ k : Fin 128, n (lidx_main_v19 i k) * wn (ridx_main_v19 i k))
          + brow (idx_main_v23 i)) (Ideal.ofBits .f32 0x00000000#32) * mask i := by
  have hd : ∀ (x : FVec Ideal S50000x128 .f32) (w : FVec Ideal S128x128 .f32),
      Host.dotGeneral dot_S50000x128_S128x128_S50000x128_1_0_0_1_n_n none x w i = ∑ k : Fin 128, x (lidx_main_v19 i k) * w (ridx_main_v19 i k) :=
    fun x w => val_main_v19_apply x w i
  have hb : broadcastInDim S50000x128 ![0, 1] bcast_S1x128_S50000x128_0_1 brow i = brow (idx_main_v23 i) :=
    broadcastInDim_apply _ bcast_S1x128_S50000x128_0_1 brow i (idx_main_v23 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have hz : broadcastInDim S50000x128 ![] bcast_S_S50000x128 (constant (F := Ideal) S_ .f32 0x00000000#32) i = Ideal.ofBits .f32 0x00000000#32 := rfl
  unfold actRowR
  rw [mulf_apply, maximumf_apply, addf_apply, addf_apply, hd, hd, hb, hz]

/-- The last layer at an index. -/
theorem plainRowR_apply (h n : FVec Ideal S50000x128 .f32) (ws wn : FVec Ideal S128x64 .f32) (brow : FVec Ideal S1x64 .f32)
    (i : S50000x64.Idx) :
    plainRowR h n ws wn brow i
      = (∑ k : Fin 128, h (lidx_main_v73 i k) * ws (ridx_main_v73 i k)) + (∑ k : Fin 128, n (lidx_main_v73 i k) * wn (ridx_main_v73 i k))
          + brow (idx_main_v77 i) := by
  have hb : broadcastInDim S50000x64 ![0, 1] bcast_S1x64_S50000x64_0_1 brow i = brow (idx_main_v77 i) :=
    broadcastInDim_apply _ bcast_S1x64_S50000x64_0_1 brow i (idx_main_v77 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  unfold plainRowR
  rw [addf_apply, addf_apply, dot64_apply, dot64_apply, hb]

end Layers

/-! ## A stored block is a piece of the layer -/

section Blocks

open Cert.ReferenceIdeal.Read

/-- First layer: a block whose loads read the arrays at the output entry's place stores the layer's value there. -/
theorem block_act0 (h n : FVec Ideal Cert.ReferenceIdeal.S50000x128 .f32) (ws wn : FVec Ideal Cert.ReferenceIdeal.S128x128 .f32)
    (brow : FVec Ideal Cert.ReferenceIdeal.S1x128 .f32) (mask : FVec Ideal Cert.ReferenceIdeal.S50000x128 .f32)
    (x0 x1 : Vec Ideal Cert.KernelIdeal.S2000x128 .f32) (x2 x3 : Vec Ideal Cert.KernelIdeal.S128x128 .f32)
    (x4 : Vec Ideal Cert.KernelIdeal.S1x128 .f32) (x5 : Vec Ideal Cert.KernelIdeal.S2000x128 .f32)
    (j : Cert.KernelIdeal.S2000x128.Idx) (i : Cert.ReferenceIdeal.S50000x128.Idx)
    (h0 : ∀ k, x0 (rowAt128 j k) = h (lidx_main_v19 i k)) (h1 : ∀ k, x1 (rowAt128 j k) = n (lidx_main_v19 i k))
    (h2 : ∀ k, x2 (colAt128 j k) = ws (ridx_main_v19 i k)) (h3 : ∀ k, x3 (colAt128 j k) = wn (ridx_main_v19 i k))
    (h4 : x4 (biasAt128 j) = brow (idx_main_v23 i)) (h5 : x5 j = mask i) :
    Cert.KernelIdeal.Gen.k0_pay1 x0 x1 x2 x3 x4 x5 j = actRowR h n ws wn brow mask i := by
  rw [pay0_apply, actRowR_apply, h4, h5]
  simp only [h0, h1, h2, h3]

/-- Second layer: the same. -/
theorem block_act1 (h n : FVec Ideal Cert.ReferenceIdeal.S50000x128 .f32) (ws wn : FVec Ideal Cert.ReferenceIdeal.S128x128 .f32)
    (brow : FVec Ideal Cert.ReferenceIdeal.S1x128 .f32) (mask : FVec Ideal Cert.ReferenceIdeal.S50000x128 .f32)
    (x0 x1 : Vec Ideal Cert.KernelIdeal.S2000x128 .f32) (x2 x3 : Vec Ideal Cert.KernelIdeal.S128x128 .f32)
    (x4 : Vec Ideal Cert.KernelIdeal.S1x128 .f32) (x5 : Vec Ideal Cert.KernelIdeal.S2000x128 .f32)
    (j : Cert.KernelIdeal.S2000x128.Idx) (i : Cert.ReferenceIdeal.S50000x128.Idx)
    (h0 : ∀ k, x0 (rowAt128 j k) = h (lidx_main_v19 i k)) (h1 : ∀ k, x1 (rowAt128 j k) = n (lidx_main_v19 i k))
    (h2 : ∀ k, x2 (colAt128 j k) = ws (ridx_main_v19 i k)) (h3 : ∀ k, x3 (colAt128 j k) = wn (ridx_main_v19 i k))
    (h4 : x4 (biasAt128 j) = brow (idx_main_v23 i)) (h5 : x5 j = mask i) :
    Cert.KernelIdeal.Gen.k1_pay1 x0 x1 x2 x3 x4 x5 j = actRowR h n ws wn brow mask i := by
  rw [pay1_apply, actRowR_apply, h4, h5]
  simp only [h0, h1, h2, h3]

/-- Last layer. -/
theorem block_plain (h n : FVec Ideal Cert.ReferenceIdeal.S50000x128 .f32) (ws wn : FVec Ideal Cert.ReferenceIdeal.S128x64 .f32)
    (brow : FVec Ideal Cert.ReferenceIdeal.S1x64 .f32)
    (x0 x1 : Vec Ideal Cert.KernelIdeal.S2000x128 .f32) (x2 x3 : Vec Ideal Cert.KernelIdeal.S128x64 .f32)
    (x4 : Vec Ideal Cert.KernelIdeal.S1x64 .f32)
    (j : Cert.KernelIdeal.S2000x64.Idx) (i : Cert.ReferenceIdeal.S50000x64.Idx)
    (h0 : ∀ k, x0 (rowAt64 j k) = h (lidx_main_v73 i k)) (h1 : ∀ k, x1 (rowAt64 j k) = n (lidx_main_v73 i k))
    (h2 : ∀ k, x2 (colAt64 j k) = ws (ridx_main_v73 i k)) (h3 : ∀ k, x3 (colAt64 j k) = wn (ridx_main_v73 i k))
    (h4 : x4 (biasAt64 j) = brow (idx_main_v77 i)) :
    Cert.KernelIdeal.Gen.k2_pay1 x0 x1 x2 x3 x4 j = plainRowR h n ws wn brow i := by
  rw [pay2_apply, plainRowR_apply, h4]
  simp only [h0, h1, h2, h3]

end Blocks

end Cert.Sage

end
-- ==== Proof.Region0.lean ====
/-
  Pallas call 0: from the blocks its grid points write back to the whole output array.

  The first layer's call: features `x`, neighbour means of `x`, `W_self1`, `W_neigh1`, the bias row, `mask1`.
  The grid has 25 points; point `t` stages rows `2000·t … 2000·t + 1999` of the features, the neighbour means
  (and the mask) and all of the two weight matrices and of the bias row, and writes back the same rows of the output.
  A loaded block therefore reads its array at (block index × block size + the coordinate inside the block), which for
  the row blocks is the output entry's own row and for the weights and bias is the coordinate itself. With the
  block recognised as a piece of the layer (DenseArray) and every row covered by the point `r / 2000`, the output
  array ends as the layer applied to the arrays the call was entered with.
-/
import proofs.«181391_j64845416235755_1_alg».proof.Proof.KernelIdealFrameP
import proofs.«181391_j64845416235755_1_alg».proof.Proof.DenseArray
import Idealize.ShloMosaic.Lib.Pipeline.Value

set_option maxRecDepth 16384

noncomputable section

namespace Cert.Sage

open Idealize.ShloMosaic Idealize.ShloMosaic.TcCoe Idealize.SL.Sem
open Idealize.ShloMosaic.Pipeline (Dat Cfg Window)
open Cert.KernelIdeal Cert.KernelIdeal.Gen Cert.KernelIdeal.GenP
open Cert.ReferenceIdeal.Read (lidx_main_v19 ridx_main_v19 idx_main_v23 lidx_main_v73 ridx_main_v73 idx_main_v77)

-- the buffer contents when the call is entered: a parameter, as in the frame
variable (V : (c : Dev nD) → (b : Ref sig .tc) → Buf (Elt Ideal) ((c : Thread nD τ).loc b))

theorem hz0 : (![0, 0] : Fin 2 → Nat) = fun _ => 0 := funext fun a => by fin_cases a <;> rfl

/-! ## Pallas call 0 -/

/-- The printed index maps, decided over the 25 grid points: the feature, neighbour, mask and output windows sit at
    block (t, 0); the weights and the bias at block (0, 0). -/
theorem idx_facts0 : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_5.index t (0 : Fin 2) = win0_6.index t (0 : Fin 2)
    ∧ win0_5.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (1 : Fin 2) = 0 :=
  (by decide +kernel : ∀ t : Fin grid0.N, _)

/-- Every one of the 25 row blocks is some point's. -/
theorem idx_onto0 : ∀ q0 : Fin 25, ∃ t : Fin cfg0.N, win0_6.index t = ![q0.val, 0] :=
  (by decide +kernel : ∀ q0 : Fin 25, ∃ t : Fin grid0.N, win0_6.index t = ![q0.val, 0])

/-- What point `t` writes back is block `t` of the layer applied to the arrays as the call finds them. -/
theorem flushed0 (c : Dev nD) (t : Fin cfg0.N) :
    (dat0 V c).flushed 6 t = ((cfg0.win 6).blk t).view.read (Elt Ideal) (actRowR (F := Ideal) (V c main_arg0) (V c main_v20) (V c main_arg3) (V c main_arg4) (V c main_v21) (V c main_arg12)) := by
  show (cfg0.win 6).cut (grid0.coords t) ((dat0 V c).after 6 t) = _
  rw [after0_6]
  unfold out0_6
  rw [View.canon_unit_zero hz0]
  simp only [View.ld_unit_zero (S := S2000x128) hz0, View.ld_unit_zero (S := S128x128) hz0, View.ld_unit_zero (S := S1x128) hz0]
  obtain ⟨e0, e1, e2, e3, e4, e5, e6, e7, e8, e9, e10, e11, e12⟩ := idx_facts0 t
  funext j
  refine block_act0 (V c main_arg0) (V c main_v20) (V c main_arg3) (V c main_arg4) (V c main_v21) (V c main_arg12) (iblk0 V c 0 t) (iblk0 V c 1 t) (iblk0 V c 2 t) (iblk0 V c 3 t) (iblk0 V c 4 t) (iblk0 V c 5 t) j (((cfg0.win 6).blk t).view.emb j) ?_ ?_ ?_ ?_ ?_ ?_
  · intro k
    show V c main_arg0 (((cfg0.win 0).blk t).view.emb (rowAt128 j k)) = V c main_arg0 (lidx_main_v19 (((cfg0.win 6).blk t).view.emb j) k)
    refine congrArg _ (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * k.val = k.val; omega
  · intro k
    show V c main_v20 (((cfg0.win 1).blk t).view.emb (rowAt128 j k)) = V c main_v20 (lidx_main_v19 (((cfg0.win 6).blk t).view.emb j) k)
    refine congrArg _ (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 128 + 1 * k.val = k.val; omega
  · intro k
    show V c main_arg3 (((cfg0.win 2).blk t).view.emb (colAt128 j k)) = V c main_arg3 (ridx_main_v19 (((cfg0.win 6).blk t).view.emb j) k)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_6.index t (1 : Fin 2) * 128 + 1 * (j 1).val; omega
  · intro k
    show V c main_arg4 (((cfg0.win 3).blk t).view.emb (colAt128 j k)) = V c main_arg4 (ridx_main_v19 (((cfg0.win 6).blk t).view.emb j) k)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  ·
    show V c main_v21 (((cfg0.win 4).blk t).view.emb (biasAt128 j)) = V c main_v21 (idx_main_v23 (((cfg0.win 6).blk t).view.emb j))
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_6.index t (1 : Fin 2) * 128 + 1 * (j 1).val; omega
  ·
    show V c main_arg12 (((cfg0.win 5).blk t).view.emb (j)) = V c main_arg12 (((cfg0.win 6).blk t).view.emb j)
    refine congrArg _ (funext fun a => Fin.ext ?_)
    match a with
    | ⟨0, _⟩ => show win0_5.index t (0 : Fin 2) * 2000 + 1 * (j 0).val = win0_6.index t (0 : Fin 2) * 2000 + 1 * (j 0).val; omega
    | ⟨1, _⟩ => show win0_5.index t (1 : Fin 2) * 128 + 1 * (j 1).val = win0_6.index t (1 : Fin 2) * 128 + 1 * (j 1).val; omega

/-- An index of the output array is in point `t`'s block iff each coordinate is in the block's range. -/
theorem mem_blk0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- Row `r` lies in the block of the point whose block index is `r / 2000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the call: the layer applied to the arrays as the call finds them. -/
theorem final0 (c : Dev nD) : (dat0 V c).arrAt 6 cfg0.N = actRowR (F := Ideal) (V c main_arg0) (V c main_v20) (V c main_arg3) (V c main_arg4) (V c main_v21) (V c main_arg12) :=
  (dat0 V c).arrAt_eq_of_cover 6 (actRowR (F := Ideal) (V c main_arg0) (V c main_v20) (V c main_arg3) (V c main_arg4) (V c main_v21) (V c main_arg12)) (fun t _ => flushed0 V c t) (cover0)

end Cert.Sage

end
-- ==== Proof.BiasRow.lean ====
/-
  The bias as a one-row array, spelt two ways.

  The kernel's program reshapes the bias vector `b` (128 or 64 entries) to a `1 × n` array for its kernel; the reference
  broadcasts `b` along a new leading axis of extent one before spreading it over the rows. A reshape keeps the
  row-major position, and position `c` of the vector is position `0·n + c` of the row, so both arrays hold `b c` at
  (0, c).
-/
import proofs.«181391_j64845416235755_1_alg».proof.Proof.Gen.KernelIdeal
import proofs.«181391_j64845416235755_1_alg».proof.Proof.Gen.ReferenceIdeal
import Idealize.ShloMosaic.Lib.Pipeline.Value

noncomputable section

namespace Cert.Sage

open Idealize.ShloMosaic Cert.KernelIdeal Cert.KernelIdeal.Gen

variable {α : Type}

/-- The vector's entry under column `j 1` of a one-row array. -/
abbrev entry128 (j : S1x128.Idx) : S128.Idx := fun a => match a with
  | ⟨0, _⟩ => ⟨(j 1).val, (j 1).isLt⟩
abbrev entry64 (j : S1x64.Idx) : S64.Idx := fun a => match a with
  | ⟨0, _⟩ => ⟨(j 1).val, (j 1).isLt⟩

/-- The kernel program's bias row: the 128-vector reshaped to one row. -/
def biasRow128 (b : S128.Idx → α) : S1x128.Idx → α := shapeCast S1x128 b shapeCasts_S128_S1x128

/-- Entry (0, c) of the reshaped vector is entry c of the vector, which is what the reference's broadcast along a new
    leading axis reads there: the two rows are one array. -/
theorem biasRow128_eq (b : S128.Idx → α) :
    biasRow128 b = broadcastInDim Cert.ReferenceIdeal.S1x128 ![1] Cert.ReferenceIdeal.Gen.bcast_S128_S1x128_1 b := by
  funext j
  have h0 : (j 0).val < 1 := (j 0).isLt
  have hk : (S128.rowMajor (entry128 j)).val = (S1x128.rowMajor j).val := by
    rw [Shape.rowMajor_val_one, Shape.rowMajor_val_two]
    show (j 1).val = (j 0).val * 128 + (j 1).val
    omega
  unfold biasRow128
  rw [shapeCast_apply b shapeCasts_S128_S1x128 j (entry128 j) hk]
  exact (broadcastInDim_apply _ Cert.ReferenceIdeal.Gen.bcast_S128_S1x128_1 b j (entry128 j) (fun a => match a with
    | ⟨0, _⟩ => by show (j 1).val = if (128 : Nat) = 1 then 0 else (j 1).val; rw [if_neg (by decide)])).symm

/-- The kernel program's bias row: the 64-vector reshaped to one row. -/
def biasRow64 (b : S64.Idx → α) : S1x64.Idx → α := shapeCast S1x64 b shapeCasts_S64_S1x64

/-- Entry (0, c) of the reshaped vector is entry c of the vector, which is what the reference's broadcast along a new
    leading axis reads there: the two rows are one array. -/
theorem biasRow64_eq (b : S64.Idx → α) :
    biasRow64 b = broadcastInDim Cert.ReferenceIdeal.S1x64 ![1] Cert.ReferenceIdeal.Gen.bcast_S64_S1x64_1 b := by
  funext j
  have h0 : (j 0).val < 1 := (j 0).isLt
  have hk : (S64.rowMajor (entry64 j)).val = (S1x64.rowMajor j).val := by
    rw [Shape.rowMajor_val_one, Shape.rowMajor_val_two]
    show (j 1).val = (j 0).val * 64 + (j 1).val
    omega
  unfold biasRow64
  rw [shapeCast_apply b shapeCasts_S64_S1x64 j (entry64 j) hk]
  exact (broadcastInDim_apply _ Cert.ReferenceIdeal.Gen.bcast_S64_S1x64_1 b j (entry64 j) (fun a => match a with
    | ⟨0, _⟩ => by show (j 1).val = if (64 : Nat) = 1 then 0 else (j 1).val; rw [if_neg (by decide)])).symm

end Cert.Sage

end
-- ==== Proof.Fold.lean ====
/-
  The kernel program's result as one function of its arguments.

  The program is three stretches of host operations, each followed by a pallas call. Its buffer contents at the six
  boundaries are a fold from the launch memory: a stretch rewrites the buffers its operations write and leaves the rest,
  a call rewrites its output array (to the layer applied to what it was entered with: Region0–2) and leaves the rest.
  Reading the fold back, level by level:
    after stretch 0   the reciprocal of the clamped degree, the first neighbour mean `agg(x) · recip`, the first bias row;
    after call 0      the first hidden layer `hid1`;
    after stretch 1   the second neighbour mean `agg(hid1) · recip` (the SAME reciprocal buffer), the second bias row;
    after call 1      `hid2`;
    after stretch 2   the third neighbour mean, the third bias row;
    after call 2      the result.
  No operation and no call writes an argument, so an argument read at any level is its launch contents.
-/
import proofs.«181391_j64845416235755_1_alg».proof.Proof.KernelIdealFrameP
import proofs.«181391_j64845416235755_1_alg».proof.Proof.Region0
import proofs.«181391_j64845416235755_1_alg».proof.Proof.Region1
import proofs.«181391_j64845416235755_1_alg».proof.Proof.Region2
import proofs.«181391_j64845416235755_1_alg».proof.Proof.Layers
import proofs.«181391_j64845416235755_1_alg».proof.Proof.BiasRow
import Idealize.ShloMosaic.Lib.StableHlo.Run

set_option maxRecDepth 16384

noncomputable section

namespace Cert.Sage

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg) (c : Dev nD)

/-- An argument's launch contents. -/
abbrev arg (b : Ref sig .tc) : Buf (Elt Ideal) ((c : Thread nD τ).loc b) := m ((c : Thread nD τ).loc b)

/-- The first hidden layer, as the kernel's program computes it. -/
def hid1 : FVec Ideal S50000x128 .f32 :=
  actRowR (F := Ideal) (arg m c main_arg0) (neighK (F := Ideal) (arg m c main_arg1) (arg m c main_arg2) (recipK (F := Ideal) (arg m c main_arg2)) (arg m c main_arg0)) (arg m c main_arg3) (arg m c main_arg4) (biasRow128 (arg m c main_arg5)) (arg m c main_arg12)

/-- The second hidden layer. -/
def hid2 : FVec Ideal S50000x128 .f32 :=
  actRowR (F := Ideal) (hid1 m c) (neighK (F := Ideal) (arg m c main_arg1) (arg m c main_arg2) (recipK (F := Ideal) (arg m c main_arg2)) (hid1 m c)) (arg m c main_arg6) (arg m c main_arg7) (biasRow128 (arg m c main_arg8)) (arg m c main_arg13)

/-- The result. -/
def outK : FVec Ideal S50000x64 .f32 :=
  plainRowR (F := Ideal) (hid2 m c) (neighK (F := Ideal) (arg m c main_arg1) (arg m c main_arg2) (recipK (F := Ideal) (arg m c main_arg2)) (hid2 m c)) (arg m c main_arg9) (arg m c main_arg10) (biasRow64 (arg m c main_arg11))

/-! ## After stretch 0 -/

theorem W1_args : ∀ b ∈ [main_arg0, main_arg1, main_arg2, main_arg3, main_arg4, main_arg6, main_arg7, main_arg8, main_arg9, main_arg10, main_arg11, main_arg12, main_arg13],
    W1 m ρ c (Proc.devRef .tc b) = arg m c b := by
  intro b hb
  simp only [List.mem_cons, List.mem_nil_iff, or_false] at hb
  rcases hb with rfl | rfl | rfl | rfl | rfl | rfl | rfl | rfl | rfl | rfl | rfl | rfl | rfl
  all_goals
    show StableHlo.after hostOps0 (W0 m ρ c) _ = _
    after_results_simp <;> rfl

theorem W1_v7 : W1 m ρ c (Proc.devRef .tc main_v7) = recipK (F := Ideal) (arg m c main_arg2) := by
  show StableHlo.after hostOps0 (W0 m ρ c) _ = _
  after_results_simp <;> rfl

theorem W1_v20 : W1 m ρ c (Proc.devRef .tc main_v20) = neighK (F := Ideal) (arg m c main_arg1) (arg m c main_arg2) (recipK (F := Ideal) (arg m c main_arg2)) (arg m c main_arg0) := by
  show StableHlo.after hostOps0 (W0 m ρ c) _ = _
  after_results_simp <;> rfl

theorem W1_v21 : W1 m ρ c (Proc.devRef .tc main_v21) = biasRow128 (arg m c main_arg5) := by
  show StableHlo.after hostOps0 (W0 m ρ c) _ = _
  after_results_simp <;> rfl

/-! ## After call 0 -/

theorem W2_args : ∀ b ∈ [main_arg1, main_arg2, main_arg6, main_arg7, main_arg8, main_arg9, main_arg10, main_arg11, main_arg13],
    W2 m ρ c (Proc.devRef .tc b) = arg m c b := by
  intro b hb
  simp only [List.mem_cons, List.mem_nil_iff, or_false] at hb
  rcases hb with rfl | rfl | rfl | rfl | rfl | rfl | rfl | rfl | rfl
  all_goals exact (W2_of_ne m ρ c _ (by decide)).trans (W1_args m ρ c _ (by decide))

theorem W2_v7 : W2 m ρ c (Proc.devRef .tc main_v7) = recipK (F := Ideal) (arg m c main_arg2) :=
  (W2_of_ne m ρ c main_v7 (by decide)).trans (W1_v7 m ρ c)

theorem W2_v22 : W2 m ρ c (Proc.devRef .tc main_v22) = hid1 m c := by
  refine ((W2_arr m ρ c 6).trans (final0 (V1 m ρ) c)).trans ?_
  show actRowR (F := Ideal) (W1 m ρ c (Proc.devRef .tc main_arg0)) (W1 m ρ c (Proc.devRef .tc main_v20)) (W1 m ρ c (Proc.devRef .tc main_arg3)) (W1 m ρ c (Proc.devRef .tc main_arg4))
    (W1 m ρ c (Proc.devRef .tc main_v21)) (W1 m ρ c (Proc.devRef .tc main_arg12)) = _
  rw [W1_args m ρ c main_arg0 (by decide), W1_v20, W1_args m ρ c main_arg3 (by decide), W1_args m ρ c main_arg4 (by decide), W1_v21,
    W1_args m ρ c main_arg12 (by decide)]
  rfl

/-! ## After stretch 1 -/

theorem W3_args : ∀ b ∈ [main_arg1, main_arg2, main_arg6, main_arg7, main_arg9, main_arg10, main_arg11, main_arg13],
    W3 m ρ c (Proc.devRef .tc b) = arg m c b := by
  intro b hb
  simp only [List.mem_cons, List.mem_nil_iff, or_false] at hb
  rcases hb with rfl | rfl | rfl | rfl | rfl | rfl | rfl | rfl
  all_goals
    show StableHlo.after hostOps1 (W2 m ρ c) _ = _
    after_results_simp
    exact W2_args m ρ c _ (by decide)

theorem W3_v7 : W3 m ρ c (Proc.devRef .tc main_v7) = recipK (F := Ideal) (arg m c main_arg2) := by
  show StableHlo.after hostOps1 (W2 m ρ c) _ = _
  after_results_simp
  exact W2_v7 m ρ c

theorem W3_v22 : W3 m ρ c (Proc.devRef .tc main_v22) = hid1 m c := by
  show StableHlo.after hostOps1 (W2 m ρ c) _ = _
  after_results_simp
  exact W2_v22 m ρ c

theorem W3_v35 : W3 m ρ c (Proc.devRef .tc main_v35) = neighK (F := Ideal) (arg m c main_arg1) (arg m c main_arg2) (recipK (F := Ideal) (arg m c main_arg2)) (hid1 m c) := by
  show StableHlo.after hostOps1 (W2 m ρ c) _ = _
  after_results_simp
  rw [W2_args m ρ c main_arg1 (by decide), W2_args m ρ c main_arg2 (by decide), W2_v7, W2_v22]
  rfl

theorem W3_v36 : W3 m ρ c (Proc.devRef .tc main_v36) = biasRow128 (arg m c main_arg8) := by
  show StableHlo.after hostOps1 (W2 m ρ c) _ = _
  after_results_simp
  rw [W2_args m ρ c main_arg8 (by decide)]
  rfl

/-! ## After call 1 -/

theorem W4_args : ∀ b ∈ [main_arg1, main_arg2, main_arg9, main_arg10, main_arg11],
    W4 m ρ c (Proc.devRef .tc b) = arg m c b := by
  intro b hb
  simp only [List.mem_cons, List.mem_nil_iff, or_false] at hb
  rcases hb with rfl | rfl | rfl | rfl | rfl
  all_goals exact (W4_of_ne m ρ c _ (by decide)).trans (W3_args m ρ c _ (by decide))

theorem W4_v7 : W4 m ρ c (Proc.devRef .tc main_v7) = recipK (F := Ideal) (arg m c main_arg2) :=
  (W4_of_ne m ρ c main_v7 (by decide)).trans (W3_v7 m ρ c)

theorem W4_v37 : W4 m ρ c (Proc.devRef .tc main_v37) = hid2 m c := by
  refine ((W4_arr m ρ c 6).trans (final1 (V3 m ρ) c)).trans ?_
  show actRowR (F := Ideal) (W3 m ρ c (Proc.devRef .tc main_v22)) (W3 m ρ c (Proc.devRef .tc main_v35)) (W3 m ρ c (Proc.devRef .tc main_arg6)) (W3 m ρ c (Proc.devRef .tc main_arg7))
    (W3 m ρ c (Proc.devRef .tc main_v36)) (W3 m ρ c (Proc.devRef .tc main_arg13)) = _
  rw [W3_v22, W3_v35, W3_args m ρ c main_arg6 (by decide), W3_args m ρ c main_arg7 (by decide), W3_v36, W3_args m ρ c main_arg13 (by decide)]
  rfl

/-! ## After stretch 2 -/

theorem W5_args : ∀ b ∈ [main_arg9, main_arg10],
    W5 m ρ c (Proc.devRef .tc b) = arg m c b := by
  intro b hb
  simp only [List.mem_cons, List.mem_nil_iff, or_false] at hb
  rcases hb with rfl | rfl
  all_goals
    show StableHlo.after hostOps2 (W4 m ρ c) _ = _
    after_results_simp
    exact W4_args m ρ c _ (by decide)

theorem W5_v37 : W5 m ρ c (Proc.devRef .tc main_v37) = hid2 m c := by
  show StableHlo.after hostOps2 (W4 m ρ c) _ = _
  after_results_simp
  exact W4_v37 m ρ c

theorem W5_v50 : W5 m ρ c (Proc.devRef .tc main_v50) = neighK (F := Ideal) (arg m c main_arg1) (arg m c main_arg2) (recipK (F := Ideal) (arg m c main_arg2)) (hid2 m c) := by
  show StableHlo.after hostOps2 (W4 m ρ c) _ = _
  after_results_simp
  rw [W4_args m ρ c main_arg1 (by decide), W4_args m ρ c main_arg2 (by decide), W4_v7, W4_v37]
  rfl

theorem W5_v51 : W5 m ρ c (Proc.devRef .tc main_v51) = biasRow64 (arg m c main_arg11) := by
  show StableHlo.after hostOps2 (W4 m ρ c) _ = _
  after_results_simp
  rw [W4_args m ρ c main_arg11 (by decide)]
  rfl

/-! ## After call 2: the result -/

theorem W6_v52 : W6 m ρ c (Proc.devRef .tc main_v52) = outK m c := by
  refine ((W6_arr m ρ c 5).trans (final2 (V5 m ρ) c)).trans ?_
  show plainRowR (F := Ideal) (W5 m ρ c (Proc.devRef .tc main_v37)) (W5 m ρ c (Proc.devRef .tc main_v50)) (W5 m ρ c (Proc.devRef .tc main_arg9)) (W5 m ρ c (Proc.devRef .tc main_arg10))
    (W5 m ρ c (Proc.devRef .tc main_v51)) = _
  rw [W5_v37, W5_v50, W5_args m ρ c main_arg9 (by decide), W5_args m ρ c main_arg10 (by decide), W5_v51]
  rfl

end Cert.Sage

end
-- ==== Proof.Bridge.lean ====
/-
  Both programs compute `sage`.

  The reference: its run ends with the result at the composed term of its operations; that term is, spelling for
  spelling, the three layers `sage` of the arguments (Layers), so the two agree by unfolding the layers' names.

  The kernel's program: its result `outK` (Fold) is the same three layers except that each neighbour mean is the
  product with the reciprocal, where the reference divides, and each bias enters as a reshaped row, where the reference
  broadcasts along a new axis. The neighbour means agree by the reciprocal law (`neigh_eq`), the rows are the same
  arrays (`biasRow…_eq`), and a layer over a bias row is the reference's layer over the bias (`actR_row`, `plainR_row`).
-/
import proofs.«181391_j64845416235755_1_alg».proof.Proof.Fold
import proofs.«181391_j64845416235755_1_alg».proof.Proof.Gen.ReferenceIdeal.Run

set_option maxRecDepth 16384

noncomputable section

namespace Cert.Sage

open Idealize.ShloMosaic Idealize.ShloMosaic.TcCoe Idealize.SL.Sem

/-- The reference's result term is `sage` of its arguments' launch contents, at any float family. -/
theorem ref_is_sage {F : FTy → Type} [FloatOps F]
    (m' : (ℓ : Loc Cert.ReferenceIdeal.nD Cert.ReferenceIdeal.τ Cert.ReferenceIdeal.sig) → Buf (Elt F) ℓ) (c : Dev Cert.ReferenceIdeal.nD) :
    Cert.ReferenceIdeal.Value.res_out0 (F := F) m' c = sage (F := F) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := by
  show Cert.ReferenceIdeal.Value.res_main_v78 (F := F) m' c = _
  unfold Cert.ReferenceIdeal.Value.res_main_v78 sage plainR actR neighR aggR degR wrapR
  rfl

/-- The kernel program's result is `sage` of its arguments' launch contents, at the exact instance. -/
theorem outK_eq (m : (ℓ : Loc Cert.KernelIdeal.nD Cert.KernelIdeal.τ Cert.KernelIdeal.sig) → Buf (Elt Ideal) ℓ) (c : Dev Cert.KernelIdeal.nD) :
    outK m c = sage (F := Ideal) (arg m c Cert.KernelIdeal.main_arg0) (arg m c Cert.KernelIdeal.main_arg1) (arg m c Cert.KernelIdeal.main_arg2) (arg m c Cert.KernelIdeal.main_arg3) (arg m c Cert.KernelIdeal.main_arg4) (arg m c Cert.KernelIdeal.main_arg5) (arg m c Cert.KernelIdeal.main_arg6) (arg m c Cert.KernelIdeal.main_arg7) (arg m c Cert.KernelIdeal.main_arg8) (arg m c Cert.KernelIdeal.main_arg9) (arg m c Cert.KernelIdeal.main_arg10) (arg m c Cert.KernelIdeal.main_arg11) (arg m c Cert.KernelIdeal.main_arg12) (arg m c Cert.KernelIdeal.main_arg13) := by
  unfold outK hid2 hid1 sage
  simp only [neigh_eq, biasRow128_eq, biasRow64_eq, actR_row, plainR_row]

end Cert.Sage

end
-- ==== Proof.lean ====
/-
  A three-layer GraphSAGE with mean aggregation: the Pallas program against its jnp reference.

  Each layer computes `h · W_self + mean(h) · W_neigh + b` over 50000 nodes, where `mean(h)` gathers `h` at the edges'
  sources, sums into the edges' destinations and normalises by the in-degree clamped below by one; the first two
  layers end with `max(·, 0)` times a dropout mask. The Pallas program keeps the gather, the scatter-add and the
  normalisation on the host and runs the dense part of each layer as one kernel over 25 blocks of 2000 rows.

  On the extended reals the two programs differ in one place only: the Pallas program forms `1 / max(deg, 1)` once
  and MULTIPLIES each neighbour sum by it, the reference DIVIDES each neighbour sum by `max(deg, 1)`. The divisor
  is at least one, so never zero, and off zero the exact division is the product with the inverse: the two means are
  equal entry by entry, infinite sums included, and no finiteness of the inputs is used. Everything else is the
  same arithmetic in another arrangement: the narrowing of the matrix operands is the identity, each block product
  accumulates into zeros and is the plain sum the host product is, and the 25 row blocks tile the arrays.

  The modules: Reciprocal (the law), Layers (the layers as whole-array functions, the shared pieces, the two means),
  DenseBlock and DenseArray (a kernel block is a piece of the reference's layer), Region0–2 (blocks to arrays),
  BiasRow, Fold (the Pallas program's result as a function of its arguments), Bridge (both programs compute `sage`).
  `preserves` has no conjunct: the idealization rewrote nothing.
-/
import proofs.«181391_j64845416235755_1_alg».proof.Defs
import proofs.«181391_j64845416235755_1_alg».proof.Proof.Gen.Kernel
import proofs.«181391_j64845416235755_1_alg».proof.Proof.KernelFrameP
import proofs.«181391_j64845416235755_1_alg».proof.Proof.Gen.KernelIdeal
import proofs.«181391_j64845416235755_1_alg».proof.Proof.KernelIdealFrameP
import proofs.«181391_j64845416235755_1_alg».proof.Proof.KernelIdealRunP
import proofs.«181391_j64845416235755_1_alg».proof.Proof.Gen.ReferenceIdeal
import proofs.«181391_j64845416235755_1_alg».proof.Proof.Gen.ReferenceIdeal.Run
import proofs.«181391_j64845416235755_1_alg».proof.Proof.Gen.Pre_finite_inputs
import proofs.«181391_j64845416235755_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments. -/
theorem frame_kernel : Cert.frame_Kernel := fun m ρ _ => Cert.Kernel.GenP.frame m ρ

/-- So does its reading at the extended reals. -/
theorem frame_kernelIdeal : Cert.frame_KernelIdeal := fun m ρ _ => Cert.KernelIdeal.GenP.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the three layers `sage` of those arguments: the
    Pallas program by reading its run back (`W6_v52`, then `outK_eq`), the reference because its run's term is
    `sage` (`ref_is_sage`) of arguments that are the Pallas program's. -/
theorem algebraic : Cert.algebraic_KernelIdeal_ReferenceIdeal := by
  intro m ρ m' ρ' _ hagree
  refine ⟨fun c => Cert.Sage.outK m c, ?_, ?_⟩
  · exact (θ_run Cert.KernelIdeal.defs _ _).mono (fun r h c => ⟨(h c).1.trans (Cert.Sage.W6_v52 m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13⟩ := hagree c
    refine (Cert.Sage.ref_is_sage m' c).trans ?_
    rw [a0, a1, a2, a3, a4, a5, a6, a7, a8, a9, a10, a11, a12, a13]
    exact (Cert.Sage.outK_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
